-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 256]⟩ ⟨2, ![1, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S1x256 : Shape := ⟨2, ![1, 256]⟩
abbrev S_ : Shape := ⟨0, ![]⟩
abbrev S256 : Shape := ⟨1, ![256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v19 : BitVec 32 := Scalar.muli v6 c2_i32_10
  let v20 : BitVec 32 := Scalar.addi c0_i32_11 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v21 : BitVec 32 := Scalar.muli v5 c1_i32_12
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S1024x512_S512_d0 : S1024x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Mesh.lean ====
import Idealize.ShloMosaic.Lib.Layout
import Idealize.ShloMosaic.Signature.Static

namespace Cert.Mesh

open Idealize.ShloMosaic

/-- On the 2×2 mesh, numbered row-major, device `c` sits at `(c / 2, c % 2)`; its exchange partner
    `(1 - c / 2, c % 2)` is the device two places on, modulo four. -/
def peer (c : Dev 4) : Dev 4 := ⟨(c.val + 2) % 4, Nat.mod_lt _ (by decide)⟩

theorem peer_peer (c : Dev 4) : peer (peer c) = c := by revert c; decide
theorem peer_ne (c : Dev 4) : peer c ≠ c := by revert c; decide
theorem peer_val (c : Dev 4) : (peer c).val = (c.val + 2) % 4 := rfl
/-- The partner keeps the column coordinate and flips the row coordinate. -/
theorem peer_col (c : Dev 4) : (peer c).val % 2 = c.val % 2 := by revert c; decide
theorem peer_row (c : Dev 4) : (peer c).val / 2 = 1 - c.val / 2 := by revert c; decide

/-- The exchange as a permutation of the devices. -/
def swap : Dev 4 ≃ Dev 4 := ⟨peer, peer, peer_peer, peer_peer⟩

end Cert.Mesh
-- ==== Proof.KernelProto.lean ====
import proofs.«900960_g7700000000000961_dist_mean_ax0_xy_m512_n256_v7x_xy2x2_f32_1_alg».proof.Proof.Mesh
import proofs.«900960_g7700000000000961_dist_mean_ax0_xy_m512_n256_v7x_xy2x2_f32_1_alg».proof.Proof.Gen.Kernel
import proofs.«900960_g7700000000000961_dist_mean_ax0_xy_m512_n256_v7x_xy2x2_f32_1_alg».proof.Proof.Gen.Kernel.Skeleton
import proofs.«900960_g7700000000000961_dist_mean_ax0_xy_m512_n256_v7x_xy2x2_f32_1_alg».proof.Proof.Gen.Kernel.Launch
import Idealize.ShloMosaic.Lib.Pipeline.Launch
import Idealize.ShloMosaic.Lib.Pipeline.Kit
import Idealize.ShloMosaic.Lib.Tactic

/-!
# The exchange protocol of the column-mean kernel on the 2×2 mesh

Each device sums the 512 rows of its block into a row of 256 partial sums, exchanges that row with the
device holding the other half of the same columns (its partner), and scales the sum of the two rows by 2⁻¹⁰.

Three semaphores per device carry the exchange, each with one round of one duty:
* the barrier semaphore: one unit, signalled by the partner at its entry. It tells the device that the partner
  is inside the kernel: the partner's landing row is the device's to write, and the partner stands at round 0 of
  its receive semaphore;
* the send semaphore: the copy's credit, paid by the device's own copy once its partial row is fully read;
  the landing gives the partial row back, unchanged;
* the receive semaphore: the copy's credit, paid by the partner's copy once the landing row is fully written;
  the landing row then holds the partner's partial sums.

A device waits on its barrier while it still owes the partner's receive credit, so receive semaphores sit
above barrier semaphores in the waiting order.
-/

noncomputable section

namespace Cert.KernelProof

open Cert.Kernel Cert.Kernel.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the staging pipeline, one for the exchange -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def st0 : MemSt nD τ sig (Elt F) := ⟨m, fun _ => 0, ρ⟩

/-! ## The partner -/

/-- Both device chains of the kernel, `(1 - c / 2) * 2 + c % 2`, name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## Buffers and semaphores -/

abbrev xM : Memref sig .tc .vmem S512x256 .f32 := Memref.whole cc0_stg0_0
abbrev oM : Memref sig .tc .vmem S1x256 .f32 := Memref.whole cc0_stg1_0
/-- The row of partial sums, and the row the partner's partial sums land in. -/
abbrev pM : Memref sig .tc .vmem S1x256 .f32 := Memref.whole cc0_scratch0
abbrev rM : Memref sig .tc .vmem S1x256 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of a row. -/
abbrev N : ℕ := (rM : Memref sig .tc .vmem S1x256 .f32).view.dmaCredit
theorem N_pos : 0 < N := View.dmaCredit_pos _ (by decide)

/-! ## Contents -/

/-- Device `c`'s block of the input, as the pipeline stages it. -/
def xstg (c : Dev nD) : (cc0_stg0_0 : Ref sig .tc).ty.Contents (Elt F) :=
  (win0_0.blk (0 : Fin 1)).view.read (Elt F) ((st0 m ρ).mem ((c : Thread nD τ).loc main_arg0))

/-- Device `c`'s row of partial sums: its block summed over the rows. -/
def part (c : Dev nD) : (cc0_scratch0 : Ref sig .tc).ty.Contents (Elt F) := k0_pay2 (xstg m ρ c)

/-- What lands on device `c`: the partner's partial sums. -/
def landed (c : Dev nD) : (cc0_scratch1 : Ref sig .tc).ty.Contents (Elt F) := part m ρ (peer c)

/-- The result row of device `c`: the two partial rows added and scaled. -/
def outAt (c : Dev nD) : (cc0_stg1_0 : Ref sig .tc).ty.Contents (Elt F) := k0_pay1 (part m ρ c) (landed m ρ c)

omit [FloatOps F] in
/-- A whole row copied over a whole row is the source row. -/
theorem copied_eq (fd : (cc0_scratch1 : Ref sig .tc).ty.Contents (Elt F)) (fs : (cc0_scratch0 : Ref sig .tc).ty.Contents (Elt F)) :
    (rM : Memref sig .tc .vmem S1x256 .f32).view.write (Elt F) fd ((pM : Memref sig .tc .vmem S1x256 .f32).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell. A barrier cell's unit hands its owner the partner's landing row (at any
    contents) and the fact that the partner is at round 0 of its receive cell; a receive cell's credit hands
    its owner the landing row holding the partner's partial sums; a send cell's credit the partial row back. -/
def xchRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then
      iprop((∃ f, ((View.loc (peer g.1.1 : Thread nD τ) (Memref.whole cc0_scratch1 : Memref sig .tc .vmem S1x256 .f32).view) ↦{fullShare} f))
        ∗ reached ER (recvCell (peer g.1.1)) 0)
    else if g.2 = .dma recvS.sem then
      ((View.loc (g.1.1 : Thread nD τ) (Memref.whole cc0_scratch1 : Memref sig .tc .vmem S1x256 .f32).view) ↦{fullShare} landed m ρ g.1.1)
    else if g.2 = .dma sendS.sem then
      ((View.loc (g.1.1 : Thread nD τ) (Memref.whole cc0_scratch0 : Memref sig .tc .vmem S1x256 .f32).view) ↦{fullShare} part m ρ g.1.1)
    else iprop(emp)
  amount_pos g _ _ _ := by
    by_cases h : g.2 = .reg barS
    · rw [if_pos h]; exact Nat.one_pos
    · rw [if_neg h]; exact N_pos

instance xchRd_payload_storable (g : GSem nD τ sig) (r : ℕ) (d : Unit) :
    BI.Storable (upEmb : UEmb _ 𝕄) ((xchRd (F := F) m ρ).payload g r d) := by
  dsimp only [xchRd]
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xchRd (F := F) m ρ).duties (barCell c) 0 = {()} := by
  dsimp only [xchRd]; exact if_pos ⟨rfl, .inl ⟨rfl, rfl⟩⟩
theorem duties_send : (xchRd (F := F) m ρ).duties (sendCell c) 0 = {()} := by
  dsimp only [xchRd]; exact if_pos ⟨rfl, .inr ⟨rfl, .inl rfl⟩⟩
theorem duties_recv : (xchRd (F := F) m ρ).duties (recvCell c) 0 = {()} := by
  dsimp only [xchRd]; exact if_pos ⟨rfl, .inr ⟨rfl, .inr rfl⟩⟩
theorem duties_later (g : GSem nD τ sig) : ∀ r, 1 ≤ r → (xchRd (F := F) m ρ).duties g r = ∅ :=
  fun r hr => by dsimp only [xchRd]; rw [if_neg fun h => by omega]

theorem amount_bar (d : Unit) : (xchRd (F := F) m ρ).amount (barCell c) 0 d = 1 := by dsimp only [xchRd]; exact if_pos rfl
theorem amount_send (d : Unit) : (xchRd (F := F) m ρ).amount (sendCell c) 0 d = N := by dsimp only [xchRd]; exact if_neg send_ne_bar
theorem amount_recv (d : Unit) : (xchRd (F := F) m ρ).amount (recvCell c) 0 d = N := by dsimp only [xchRd]; exact if_neg recv_ne_bar

theorem expect_bar : (xchRd (F := F) m ρ).expect (barCell c) 0 = 1 := by
  unfold Schedule.expect Schedule.amountOf; rw [duties_bar, Finset.sum_singleton, amount_bar]
theorem expect_send : (xchRd (F := F) m ρ).expect (sendCell c) 0 = N := by
  unfold Schedule.expect Schedule.amountOf; rw [duties_send, Finset.sum_singleton, amount_send]
theorem expect_recv : (xchRd (F := F) m ρ).expect (recvCell c) 0 = N := by
  unfold Schedule.expect Schedule.amountOf; rw [duties_recv, Finset.sum_singleton, amount_recv]

theorem payload_bar (d : Unit) : (xchRd (F := F) m ρ).payload (barCell c) 0 d
    = iprop((∃ f, ((View.loc (peer c : Thread nD τ) (Memref.whole cc0_scratch1 : Memref sig .tc .vmem S1x256 .f32).view) ↦{fullShare} f))
        ∗ reached ER (recvCell (peer c)) 0) := by
  dsimp only [xchRd]; rw [if_pos rfl]
/-- The partner's barrier duty, as the device that pays it reads it: its own landing row, its own receive cell. -/
theorem payload_bar_peer (d : Unit) : (xchRd (F := F) m ρ).payload (barCell (peer c)) 0 d
    = iprop((∃ f, ((View.loc (c : Thread nD τ) (Memref.whole cc0_scratch1 : Memref sig .tc .vmem S1x256 .f32).view) ↦{fullShare} f))
        ∗ reached ER (recvCell c) 0) := by
  rw [payload_bar, peer_peer]
theorem payload_send (d : Unit) : (xchRd (F := F) m ρ).payload (sendCell c) 0 d
    = ((View.loc (c : Thread nD τ) (Memref.whole cc0_scratch0 : Memref sig .tc .vmem S1x256 .f32).view) ↦{fullShare} part m ρ c) := by
  dsimp only [xchRd]; rw [if_neg send_ne_bar, if_neg send_ne_recv, if_pos rfl]
theorem payload_recv (d : Unit) : (xchRd (F := F) m ρ).payload (recvCell c) 0 d
    = ((View.loc (c : Thread nD τ) (Memref.whole cc0_scratch1 : Memref sig .tc .vmem S1x256 .f32).view) ↦{fullShare} landed m ρ c) := by
  dsimp only [xchRd]; rw [if_neg recv_ne_bar, if_pos rfl]
/-- The partner's receive duty, as the device that pays it reads it: the partner's landing row holding this device's partial sums. -/
theorem payload_recv_peer (d : Unit) : (xchRd (F := F) m ρ).payload (recvCell (peer c)) 0 d
    = ((View.loc (peer c : Thread nD τ) (Memref.whole cc0_scratch1 : Memref sig .tc .vmem S1x256 .f32).view) ↦{fullShare} part m ρ c) := by
  rw [payload_recv]; unfold landed; rw [peer_peer]

end Sched

/-! ## What each device owes at launch; the waiting order -/

/-- Device `c` owes the partner's receive cell one copy's credit and the partner's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging or send wait is below everything a device owes. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device `c`'s body opens, at the names `K` they were allocated at: its own three,
    the partner's barrier cell (its signal) and the partner's receive cell (its copy). -/
def invs (K : Dev nD × Fin 3 → ℕ) (c : Dev nD) : sProp 𝕄 :=
  iprop(cellInv ER (xchRd m ρ) (K (c, 0)) (barCell c) ∗ cellInv ER (xchRd m ρ) (K (c, 1)) (sendCell c) ∗ cellInv ER (xchRd m ρ) (K (c, 2)) (recvCell c)
    ∗ cellInv ER (xchRd m ρ) (K (peer c, 0)) (barCell (peer c)) ∗ cellInv ER (xchRd m ρ) (K (peer c, 2)) (recvCell (peer c)))

instance invs_persistent (K : Dev nD × Fin 3 → ℕ) (c : Dev nD) : BI.Persistent (invs m ρ K c) := by unfold invs; infer_instance

/-- The exchange's ghost state device `c` starts from: the invariants; its positions at round 0 of its three cells;
    round 0 reached on the cells it pays and on its own send and receive cells; the three duty tokens it pays with —
    the partner's barrier duty, the partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, the credit for its barrier's unit and for its receive
    cell's copy, and the waiting order. -/
def start (c : Dev nD) : sProp 𝕄 :=
  iprop((∃ K, ghost m ρ K c) ∗ cred (tallyAt (barCell c) () 1) ∗ cred (tallyAt (recvCell c) () N) ∗ levAts L lv)

/-- Before the body: that, and the two scratch rows at any contents. -/
def Φ₀ (c : Dev nD) : sProp 𝕄 :=
  iprop(start m ρ c
    ∗ (∃ f, ((View.loc (c : Thread nD τ) (Memref.whole cc0_scratch0 : Memref sig .tc .vmem S1x256 .f32).view) ↦{fullShare} f))
    ∗ (∃ f, ((View.loc (c : Thread nD τ) (Memref.whole cc0_scratch1 : Memref sig .tc .vmem S1x256 .f32).view) ↦{fullShare} f)))
/-- After it: the partial row and the landing row at their values, the two own semaphores back at zero. -/
def Φ₁ (c : Dev nD) : sProp 𝕄 :=
  iprop(((View.loc (c : Thread nD τ) (Memref.whole cc0_scratch0 : Memref sig .tc .vmem S1x256 .f32).view) ↦{fullShare} part m ρ c)
    ∗ ((View.loc (c : Thread nD τ) (Memref.whole cc0_scratch1 : Memref sig .tc .vmem S1x256 .f32).view) ↦{fullShare} landed m ρ c)
    ∗ semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelBody.lean ====
import proofs.«900960_g7700000000000961_dist_mean_ax0_xy_m512_n256_v7x_xy2x2_f32_1_alg».proof.Proof.KernelProto

/-!
# One device's body of the column-mean exchange

Stepped once, at a symbolic device `c`: the signal to the partner's barrier (handing over the landing row), the
row sums stored into the partial row, the barrier wait (receiving the partner's landing row), the copy of the
partial row into it, the two waits, and the scaled sum of the two rows stored into the result row.
-/

noncomputable section

namespace Cert.KernelProof

open Cert.Kernel Cert.Kernel.Gen
open Cert.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the exchange's ghost state, the two credits, the waiting order, the two scratch
    rows at any contents, what the device owes, and the two staged windows. -/
def bodyPre (c : Dev nD) : sProp 𝕄 :=
  iprop((ghost m ρ K c ∗ cred (tallyAt (barCell c) () 1) ∗ cred (tallyAt (recvCell c) () N) ∗ levAts L lv
      ∗ (∃ f, ((View.loc (c : Thread nD τ) (Memref.whole cc0_scratch0 : Memref sig .tc .vmem S1x256 .f32).view) ↦{fullShare} f))
      ∗ (∃ f, ((View.loc (c : Thread nD τ) (Memref.whole cc0_scratch1 : Memref sig .tc .vmem S1x256 .f32).view) ↦{fullShare} f)))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-! ### Whole-row reads and writes -/

omit [FloatOps F] in
theorem hz : (![0, 0] : Fin 2 → Nat) = fun _ => 0 := funext fun a => by fin_cases a <;> rfl

abbrev rX : Rect S512x256 := Rect.unit (s := S512x256) ![0, 0] S512x256.size inb_S512x256_S512x256_0_0
abbrev rR : Rect S1x256 := Rect.unit (s := S1x256) ![0, 0] S1x256.size inb_S1x256_S1x256_0_0

omit [FloatOps F] in
theorem read_x (f : (cc0_stg0_0 : Ref sig .tc).ty.Contents (Elt F)) :
    (xM : Memref sig .tc .vmem S512x256 .f32).view.readAt (Elt F) rX.toLoadRect f = f :=
  Memref.readAt_unit_zero (Elt F) cc0_stg0_0 hz _ f
omit [FloatOps F] in
theorem read_p (f : (cc0_scratch0 : Ref sig .tc).ty.Contents (Elt F)) :
    (pM : Memref sig .tc .vmem S1x256 .f32).view.readAt (Elt F) rR.toLoadRect f = f :=
  Memref.readAt_unit_zero (Elt F) cc0_scratch0 hz _ f
omit [FloatOps F] in
theorem read_r (f : (cc0_scratch1 : Ref sig .tc).ty.Contents (Elt F)) :
    (rM : Memref sig .tc .vmem S1x256 .f32).view.readAt (Elt F) rR.toLoadRect f = f :=
  Memref.readAt_unit_zero (Elt F) cc0_scratch1 hz _ f
omit [FloatOps F] in
/-- One store of a whole row leaves that row. -/
theorem written_p (f w : (cc0_scratch0 : Ref sig .tc).ty.Contents (Elt F)) :
    (pM : Memref sig .tc .vmem S1x256 .f32).view.writes (Elt F) f [⟨rR, w⟩] = w :=
  (View.writes_singleton _ _ _ _).trans (Memref.write_access_unit_zero_univ (Elt F) cc0_scratch0 hz _ f w)
omit [FloatOps F] in
theorem written_o (f w : (cc0_stg1_0 : Ref sig .tc).ty.Contents (Elt F)) :
    (oM : Memref sig .tc .vmem S1x256 .f32).view.writes (Elt F) f [⟨rR, w⟩] = w :=
  (View.writes_singleton _ _ _ _).trans (Memref.write_access_unit_zero_univ (Elt F) cc0_stg1_0 hz _ f w)

/-- The partial row after its store: the row sums of the staged block. -/
theorem prt_restate (c : Dev nD) (f0 : (cc0_scratch0 : Ref sig .tc).ty.Contents (Elt F)) :
    (((View.loc (c : Thread nD τ) (Memref.whole cc0_scratch0 : Memref sig .tc .vmem S1x256 .f32).view) ↦{fullShare}
        ((pM : Memref sig .tc .vmem S1x256 .f32).view.writes (Elt F) f0
          [⟨rR, k0_pay2 ((xM : Memref sig .tc .vmem S512x256 .f32).view.readAt (Elt F) rX.toLoadRect (xstg m ρ c))⟩])) : sProp 𝕄)
      = ((View.loc (c : Thread nD τ) (Memref.whole cc0_scratch0 : Memref sig .tc .vmem S1x256 .f32).view) ↦{fullShare} part m ρ c) := by
  rw [written_p, read_x]; rfl

/-- The result row after its store: the scaled sum of the partial row and the landed row. -/
theorem out_restate (c : Dev nD) (g1 : (cc0_stg1_0 : Ref sig .tc).ty.Contents (Elt F)) :
    (((View.loc (c : Thread nD τ) (Memref.whole cc0_stg1_0 : Memref sig .tc .vmem S1x256 .f32).view) ↦{fullShare}
        ((oM : Memref sig .tc .vmem S1x256 .f32).view.writes (Elt F) g1
          [⟨rR, k0_pay1 ((pM : Memref sig .tc .vmem S1x256 .f32).view.readAt (Elt F) rR.toLoadRect (part m ρ c))
              ((rM : Memref sig .tc .vmem S1x256 .f32).view.readAt (Elt F) rR.toLoadRect (landed m ρ c))⟩])) : sProp 𝕄)
      = ((View.loc (c : Thread nD τ) (Memref.whole cc0_stg1_0 : Memref sig .tc .vmem S1x256 .f32).view) ↦{fullShare} outAt m ρ c) := by
  rw [written_o, read_p, read_r]; rfl

attribute [local sl_rounds] duties_bar duties_send duties_recv amount_bar amount_send amount_recv expect_bar expect_send expect_recv
  payload_bar payload_send payload_recv
attribute [local sl_rounds high] payload_bar_peer payload_recv_peer
attribute [local sl_canon] dev1_eq dev2_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hprt⟩, ⟨%f1, Hrcv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  have hmw := mayWait_bar (F := F) c
  ihave Hxs := (Entails.of_eq (show (((c : Thread nD τ).loc cc0_stg0_0) ↦{fullShare} xstg m ρ c : sProp 𝕄)
      = ((View.loc (c : Thread nD τ) (Memref.whole cc0_stg0_0 : Memref sig .tc .vmem S512x256 .f32).view) ↦{fullShare} xstg m ρ c) from rfl)) $$ Hx
  ihave Hos := (Entails.of_eq (show (((c : Thread nD τ).loc cc0_stg1_0) ↦{fullShare} g1 : sProp 𝕄)
      = ((View.loc (c : Thread nD τ) (Memref.whole cc0_stg1_0 : Memref sig .tc .vmem S1x256 .f32).view) ↦{fullShare} g1) from rfl)) $$ Hout
  sl_exec
  ihave Hprt' := (Entails.of_eq (prt_restate m ρ c f0)) $$ Hprt
  sl_exec (disch := simp only [dev1_eq, dev2_eq])
  -- the two own cells have no later round: their counters, back at zero, are the device's again
  imod (Rounds.cell_close ER (xchRd m ρ) (Set.mem_univ (K (c, 1))) (fun h => h) (R := 0 + 1) (duties_later m ρ (sendCell c))) $$ [HatS] with HzS
  · isplitr; · iexact HIsnd
    iexact HatS
  imod (Rounds.cell_close ER (xchRd m ρ) (Set.mem_univ (K (c, 2))) (fun h => h) (R := 0 + 1) (duties_later m ρ (recvCell c))) $$ [HatV] with HzV
  · isplitr; · iexact HIrcv
    iexact HatV
  ihave Hos' := (Entails.of_eq (out_restate m ρ c g1)) $$ Hos
  rw [wp_ret]; imodintro
  iapply Hk
  unfold bodyPost Φ₁ Dat.owesAt Pipeline.owesWithin
  rw [show (dats m ρ 0 c).owed t₀.succ = 0 from rfl]
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hxs]
  · iexists _; isplitr; · (ipureintro; rfl)
    iexact Hxs
  iexists _; isplitr; · (ipureintro; rfl)
  iexact Hos'

end Body

end Cert.KernelProof

end
-- ==== Proof.KernelAlloc.lean ====
import proofs.«900960_g7700000000000961_dist_mean_ax0_xy_m512_n256_v7x_xy2x2_f32_1_alg».proof.Proof.KernelProto

/-!
# The launch of the column-mean exchange: ghost state, credit, and what each device starts from

The twelve cells (three per device) are funded at round 0 and their invariants allocated for all devices under
one update, because a barrier cell and a receive cell are each opened by two devices. The tokens of a device's
barrier and receive duties go to its partner, which pays them; the launch credit of a barrier cell is the one
unit its partner owes it, that of a receive cell the one copy its partner owes it.
-/

noncomputable section

namespace Cert.KernelProof

open Cert.Kernel Cert.Kernel.Gen
open Cert.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xchCells : Finset (GSem nD τ sig) := Finset.univ.map ⟨kcell, kcell_injective⟩

/-- The duty tokens as minted: one per cell, round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xchToks : Finset (GSem nD τ sig × ℕ × Unit) := Finset.univ.map ⟨tokOf, tokOf_injective⟩

def u₀ : UU :=
  (initOf (Pipeline.cells cfgs cellOf_inj) (Pipeline.launchToks cfgs cellOf_inj), initOf xchCells xchToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch deals device `c`. -/
def G (c : Dev nD) : sProp 𝕄 :=
  iprop((bigSep Finset.univ fun k : Fin 3 => roundState ER (xchRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_xch : BI.own (ER (initOf xchCells xchToks)) ⊢ (|==> bigSep Finset.univ (G m ρ) : sProp 𝕄) := by
  have hX (Φ : GSem nD τ sig → sProp 𝕄) : bigSep xchCells Φ = bigSep Finset.univ fun c : Dev nD => bigSep Finset.univ fun k : Fin 3 => Φ (kcell (c, k)) := by
    unfold xchCells; rw [bigSep_map, bigSep_univ_prod]; rfl
  have hT : bigSep xchToks (fun x => (dutyTok ER x.1 x.2.1 x.2.2 : sProp 𝕄)) = bigSep Finset.univ fun c : Dev nD => toks c := by
    unfold xchToks; rw [bigSep_map, bigSep_univ_prod]
    exact bigSep_congr fun c _ => by unfold toks; rw [bigSep_fin3]; rfl
  iintro HX
  imod (Rounds.fund ER (xchRd m ρ) xchCells xchToks) $$ HX with ⟨Hst, Hr, Hat, Htok⟩
  imodintro
  ihave Hst' := (Entails.of_eq (hX fun g => roundState ER (xchRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xchRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchRd m ρ) (kcell (c, k)) 0)
      ⊢ (|={Set.univ}=> bigSep Finset.univ fun k => iprop(∃ κ : ℕ, cellInv ER (xchRd m ρ) κ (kcell (c, k))) : sProp 𝕄) from by
        rw [← bigSep_sep']
        exact (bigSep_mono fun k _ => (Rounds.body_intro ER (xchRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (xchRd m ρ) (K ck) (kcell ck) : sProp 𝕄)) ⊢ cellInv ER (xchRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the exchange: a barrier's and a receive cell's token go to the partner, a send cell's stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (xchRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchRd m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

theorem peer_eq_iff {a b : Dev nD} : Iff (a = peer b) (b = peer a) :=
  ⟨fun h => by rw [h, peer_peer], fun h => by rw [h, peer_peer]⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (peer_eq_iff.mp (bar_eq_iff.mp h1))), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (peer_eq_iff.mp (recv_eq_iff.mp h1))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hp⟩, ⟨%g, Hr⟩⟩
  isplitl [Hs]; · iexact Hs
  isplitl [Hp]
  · iexists f; iexact Hp
  · iexists g; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hp, Hr, HzS, HzV⟩
  isplitr; · iempintro
  isplitl [HzS HzV]
  · isplitl [HzS] <;> iassumption
  isplitl [Hp]
  · iexists (part m ρ c); iexact Hp
  · iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelProof

end
-- ==== Proof.KernelLaunch.lean ====
import proofs.«900960_g7700000000000961_dist_mean_ax0_xy_m512_n256_v7x_xy2x2_f32_1_alg».proof.Proof.KernelBody
import proofs.«900960_g7700000000000961_dist_mean_ax0_xy_m512_n256_v7x_xy2x2_f32_1_alg».proof.Proof.KernelAlloc
import proofs.«900960_g7700000000000961_dist_mean_ax0_xy_m512_n256_v7x_xy2x2_f32_1_alg».proof.Proof.Gen.Kernel.Points

/-!
# The run of the column-mean exchange

From any memory with every semaphore at zero, every fair interleaving of the four devices ends; each device's
result row then holds the scaled sum of its own and its partner's partial rows, and its input block is unchanged.
-/

noncomputable section

namespace Cert.KernelProof

open Cert.Kernel Cert.Kernel.Gen
open Cert.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hprt, Hrcv⟩, Ho, Hx, Hout⟩
  iapply (sound_body m ρ K c fun _ => bodyPost m ρ c)
  unfold bodyPre
  isplitr []
  · isplitl [Hg Hrest Hprt Hrcv]
    · isplitl [Hg]; · iexact Hg
      icases Hrest with ⟨H1, H2, H3⟩
      isplitl [H1]; · iexact H1
      isplitl [H2]; · iexact H2
      isplitl [H3]; · iexact H3
      isplitl [Hprt]; · iexact Hprt
      iexact Hrcv
    isplitl [Ho]; · iexact Ho
    isplitl [Hx] <;> iassumption
  · iintro H; iexact H

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution terminates, and every final state has each device's windowed arrays at the computed contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_xch m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-! ### The final arrays, named -/

/-- The grid has one point, and each window's block there is its whole array at offset zero: a block read back is the array. -/
theorem read_in (c : Dev nD) (f : Buf (Elt F) ((c : Thread nD τ).loc main_arg0)) :
    (win0_0.blk t₀).view.read (Elt F) f = f :=
  Memref.read_access_unit_zero (Elt F) main_arg0
    (show (fun a => (win0_0.index t₀) a * main_arg0.ty.shape.size a) = fun _ => 0 from
      funext fun a => by fin_cases a <;> decide) (fun a => by fin_cases a <;> decide) f
theorem read_out (c : Dev nD) (f : Buf (Elt F) ((c : Thread nD τ).loc main_v1)) :
    (win0_1.blk t₀).view.read (Elt F) f = f :=
  Memref.read_access_unit_zero (Elt F) main_v1
    (show (fun a => (win0_1.index t₀) a * main_v1.ty.shape.size a) = fun _ => 0 from
      funext fun a => by fin_cases a <;> decide) (fun a => by fin_cases a <;> decide) f

/-- The input block ends as it was launched. -/
theorem finalA_x (c : Dev nD) : finalA m ρ c (0 : Fin 2) = (st0 m ρ).mem (win0_0.arr.view.loc (c : Thread nD τ)) :=
  (dats (F := F) m ρ 0 c).arrAt_in (0 : Fin 2) rfl _

/-- The staged block of the input is the whole input block. -/
theorem xstg_eq (c : Dev nD) : xstg m ρ c = m ((c : Thread nD τ).loc main_arg0) := by
  show (win0_0.blk t₀).view.read (Elt F) (m ((c : Thread nD τ).loc main_arg0)) = _
  exact read_in c _

/-- The result array ends holding the result row: the one write-back writes the whole row over the whole array. -/
theorem finalA_out (c : Dev nD) : finalA m ρ c (1 : Fin 2) = outAt m ρ c := by
  have hw : ((cfg0.win 1).blk t₀).view.read (Elt F) ((dats (F := F) m ρ 0 c).arrAt 1 cfg0.N)
      = (dats (F := F) m ρ 0 c).flushed 1 t₀ := by
    rw [show cfg0.N = t₀.val + 1 from rfl, (dats m ρ 0 c).arrAt_succ (1 : Fin 2) t₀, flush0_1, if_pos rfl]
    exact View.read_write_univ _ _
  exact (read_out c _).symm.trans (hw.trans (funext fun _ => rfl))

/-- The run with both arrays named: each device's result array holds its result row, its input block is unchanged. -/
theorem run_named : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ)

/-- info: 'Cert.KernelProof.run_named' depends on axioms: [propext, Classical.choice, Quot.sound] -/
#guard_msgs in #print axioms run_named

end Cert.KernelProof

end
-- ==== Proof.KernelIdealProto.lean ====
import proofs.«900960_g7700000000000961_dist_mean_ax0_xy_m512_n256_v7x_xy2x2_f32_1_alg».proof.Proof.Mesh
import proofs.«900960_g7700000000000961_dist_mean_ax0_xy_m512_n256_v7x_xy2x2_f32_1_alg».proof.Proof.Gen.KernelIdeal
import proofs.«900960_g7700000000000961_dist_mean_ax0_xy_m512_n256_v7x_xy2x2_f32_1_alg».proof.Proof.Gen.KernelIdeal.Skeleton
import proofs.«900960_g7700000000000961_dist_mean_ax0_xy_m512_n256_v7x_xy2x2_f32_1_alg».proof.Proof.Gen.KernelIdeal.Launch
import Idealize.ShloMosaic.Lib.Pipeline.Launch
import Idealize.ShloMosaic.Lib.Pipeline.Kit
import Idealize.ShloMosaic.Lib.Tactic

/-!
# The exchange protocol of the column-mean kernel on the 2×2 mesh

Each device sums the 512 rows of its block into a row of 256 partial sums, exchanges that row with the
device holding the other half of the same columns (its partner), and scales the sum of the two rows by 2⁻¹⁰.

Three semaphores per device carry the exchange, each with one round of one duty:
* the barrier semaphore: one unit, signalled by the partner at its entry. It tells the device that the partner
  is inside the kernel: the partner's landing row is the device's to write, and the partner stands at round 0 of
  its receive semaphore;
* the send semaphore: the copy's credit, paid by the device's own copy once its partial row is fully read;
  the landing gives the partial row back, unchanged;
* the receive semaphore: the copy's credit, paid by the partner's copy once the landing row is fully written;
  the landing row then holds the partner's partial sums.

A device waits on its barrier while it still owes the partner's receive credit, so receive semaphores sit
above barrier semaphores in the waiting order.
-/

noncomputable section

namespace Cert.KernelIdealProof

open Cert.KernelIdeal Cert.KernelIdeal.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the staging pipeline, one for the exchange -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def st0 : MemSt nD τ sig (Elt F) := ⟨m, fun _ => 0, ρ⟩

/-! ## The partner -/

/-- Both device chains of the kernel, `(1 - c / 2) * 2 + c % 2`, name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## Buffers and semaphores -/

abbrev xM : Memref sig .tc .vmem S512x256 .f32 := Memref.whole cc0_stg0_0
abbrev oM : Memref sig .tc .vmem S1x256 .f32 := Memref.whole cc0_stg1_0
/-- The row of partial sums, and the row the partner's partial sums land in. -/
abbrev pM : Memref sig .tc .vmem S1x256 .f32 := Memref.whole cc0_scratch0
abbrev rM : Memref sig .tc .vmem S1x256 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of a row. -/
abbrev N : ℕ := (rM : Memref sig .tc .vmem S1x256 .f32).view.dmaCredit
theorem N_pos : 0 < N := View.dmaCredit_pos _ (by decide)

/-! ## Contents -/

/-- Device `c`'s block of the input, as the pipeline stages it. -/
def xstg (c : Dev nD) : (cc0_stg0_0 : Ref sig .tc).ty.Contents (Elt F) :=
  (win0_0.blk (0 : Fin 1)).view.read (Elt F) ((st0 m ρ).mem ((c : Thread nD τ).loc main_arg0))

/-- Device `c`'s row of partial sums: its block summed over the rows. -/
def part (c : Dev nD) : (cc0_scratch0 : Ref sig .tc).ty.Contents (Elt F) := k0_pay2 (xstg m ρ c)

/-- What lands on device `c`: the partner's partial sums. -/
def landed (c : Dev nD) : (cc0_scratch1 : Ref sig .tc).ty.Contents (Elt F) := part m ρ (peer c)

/-- The result row of device `c`: the two partial rows added and scaled. -/
def outAt (c : Dev nD) : (cc0_stg1_0 : Ref sig .tc).ty.Contents (Elt F) := k0_pay1 (part m ρ c) (landed m ρ c)

omit [FloatOps F] in
/-- A whole row copied over a whole row is the source row. -/
theorem copied_eq (fd : (cc0_scratch1 : Ref sig .tc).ty.Contents (Elt F)) (fs : (cc0_scratch0 : Ref sig .tc).ty.Contents (Elt F)) :
    (rM : Memref sig .tc .vmem S1x256 .f32).view.write (Elt F) fd ((pM : Memref sig .tc .vmem S1x256 .f32).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell. A barrier cell's unit hands its owner the partner's landing row (at any
    contents) and the fact that the partner is at round 0 of its receive cell; a receive cell's credit hands
    its owner the landing row holding the partner's partial sums; a send cell's credit the partial row back. -/
def xchRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then
      iprop((∃ f, ((View.loc (peer g.1.1 : Thread nD τ) (Memref.whole cc0_scratch1 : Memref sig .tc .vmem S1x256 .f32).view) ↦{fullShare} f))
        ∗ reached ER (recvCell (peer g.1.1)) 0)
    else if g.2 = .dma recvS.sem then
      ((View.loc (g.1.1 : Thread nD τ) (Memref.whole cc0_scratch1 : Memref sig .tc .vmem S1x256 .f32).view) ↦{fullShare} landed m ρ g.1.1)
    else if g.2 = .dma sendS.sem then
      ((View.loc (g.1.1 : Thread nD τ) (Memref.whole cc0_scratch0 : Memref sig .tc .vmem S1x256 .f32).view) ↦{fullShare} part m ρ g.1.1)
    else iprop(emp)
  amount_pos g _ _ _ := by
    by_cases h : g.2 = .reg barS
    · rw [if_pos h]; exact Nat.one_pos
    · rw [if_neg h]; exact N_pos

instance xchRd_payload_storable (g : GSem nD τ sig) (r : ℕ) (d : Unit) :
    BI.Storable (upEmb : UEmb _ 𝕄) ((xchRd (F := F) m ρ).payload g r d) := by
  dsimp only [xchRd]
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xchRd (F := F) m ρ).duties (barCell c) 0 = {()} := by
  dsimp only [xchRd]; exact if_pos ⟨rfl, .inl ⟨rfl, rfl⟩⟩
theorem duties_send : (xchRd (F := F) m ρ).duties (sendCell c) 0 = {()} := by
  dsimp only [xchRd]; exact if_pos ⟨rfl, .inr ⟨rfl, .inl rfl⟩⟩
theorem duties_recv : (xchRd (F := F) m ρ).duties (recvCell c) 0 = {()} := by
  dsimp only [xchRd]; exact if_pos ⟨rfl, .inr ⟨rfl, .inr rfl⟩⟩
theorem duties_later (g : GSem nD τ sig) : ∀ r, 1 ≤ r → (xchRd (F := F) m ρ).duties g r = ∅ :=
  fun r hr => by dsimp only [xchRd]; rw [if_neg fun h => by omega]

theorem amount_bar (d : Unit) : (xchRd (F := F) m ρ).amount (barCell c) 0 d = 1 := by dsimp only [xchRd]; exact if_pos rfl
theorem amount_send (d : Unit) : (xchRd (F := F) m ρ).amount (sendCell c) 0 d = N := by dsimp only [xchRd]; exact if_neg send_ne_bar
theorem amount_recv (d : Unit) : (xchRd (F := F) m ρ).amount (recvCell c) 0 d = N := by dsimp only [xchRd]; exact if_neg recv_ne_bar

theorem expect_bar : (xchRd (F := F) m ρ).expect (barCell c) 0 = 1 := by
  unfold Schedule.expect Schedule.amountOf; rw [duties_bar, Finset.sum_singleton, amount_bar]
theorem expect_send : (xchRd (F := F) m ρ).expect (sendCell c) 0 = N := by
  unfold Schedule.expect Schedule.amountOf; rw [duties_send, Finset.sum_singleton, amount_send]
theorem expect_recv : (xchRd (F := F) m ρ).expect (recvCell c) 0 = N := by
  unfold Schedule.expect Schedule.amountOf; rw [duties_recv, Finset.sum_singleton, amount_recv]

theorem payload_bar (d : Unit) : (xchRd (F := F) m ρ).payload (barCell c) 0 d
    = iprop((∃ f, ((View.loc (peer c : Thread nD τ) (Memref.whole cc0_scratch1 : Memref sig .tc .vmem S1x256 .f32).view) ↦{fullShare} f))
        ∗ reached ER (recvCell (peer c)) 0) := by
  dsimp only [xchRd]; rw [if_pos rfl]
/-- The partner's barrier duty, as the device that pays it reads it: its own landing row, its own receive cell. -/
theorem payload_bar_peer (d : Unit) : (xchRd (F := F) m ρ).payload (barCell (peer c)) 0 d
    = iprop((∃ f, ((View.loc (c : Thread nD τ) (Memref.whole cc0_scratch1 : Memref sig .tc .vmem S1x256 .f32).view) ↦{fullShare} f))
        ∗ reached ER (recvCell c) 0) := by
  rw [payload_bar, peer_peer]
theorem payload_send (d : Unit) : (xchRd (F := F) m ρ).payload (sendCell c) 0 d
    = ((View.loc (c : Thread nD τ) (Memref.whole cc0_scratch0 : Memref sig .tc .vmem S1x256 .f32).view) ↦{fullShare} part m ρ c) := by
  dsimp only [xchRd]; rw [if_neg send_ne_bar, if_neg send_ne_recv, if_pos rfl]
theorem payload_recv (d : Unit) : (xchRd (F := F) m ρ).payload (recvCell c) 0 d
    = ((View.loc (c : Thread nD τ) (Memref.whole cc0_scratch1 : Memref sig .tc .vmem S1x256 .f32).view) ↦{fullShare} landed m ρ c) := by
  dsimp only [xchRd]; rw [if_neg recv_ne_bar, if_pos rfl]
/-- The partner's receive duty, as the device that pays it reads it: the partner's landing row holding this device's partial sums. -/
theorem payload_recv_peer (d : Unit) : (xchRd (F := F) m ρ).payload (recvCell (peer c)) 0 d
    = ((View.loc (peer c : Thread nD τ) (Memref.whole cc0_scratch1 : Memref sig .tc .vmem S1x256 .f32).view) ↦{fullShare} part m ρ c) := by
  rw [payload_recv]; unfold landed; rw [peer_peer]

end Sched

/-! ## What each device owes at launch; the waiting order -/

/-- Device `c` owes the partner's receive cell one copy's credit and the partner's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging or send wait is below everything a device owes. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device `c`'s body opens, at the names `K` they were allocated at: its own three,
    the partner's barrier cell (its signal) and the partner's receive cell (its copy). -/
def invs (K : Dev nD × Fin 3 → ℕ) (c : Dev nD) : sProp 𝕄 :=
  iprop(cellInv ER (xchRd m ρ) (K (c, 0)) (barCell c) ∗ cellInv ER (xchRd m ρ) (K (c, 1)) (sendCell c) ∗ cellInv ER (xchRd m ρ) (K (c, 2)) (recvCell c)
    ∗ cellInv ER (xchRd m ρ) (K (peer c, 0)) (barCell (peer c)) ∗ cellInv ER (xchRd m ρ) (K (peer c, 2)) (recvCell (peer c)))

instance invs_persistent (K : Dev nD × Fin 3 → ℕ) (c : Dev nD) : BI.Persistent (invs m ρ K c) := by unfold invs; infer_instance

/-- The exchange's ghost state device `c` starts from: the invariants; its positions at round 0 of its three cells;
    round 0 reached on the cells it pays and on its own send and receive cells; the three duty tokens it pays with —
    the partner's barrier duty, the partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, the credit for its barrier's unit and for its receive
    cell's copy, and the waiting order. -/
def start (c : Dev nD) : sProp 𝕄 :=
  iprop((∃ K, ghost m ρ K c) ∗ cred (tallyAt (barCell c) () 1) ∗ cred (tallyAt (recvCell c) () N) ∗ levAts L lv)

/-- Before the body: that, and the two scratch rows at any contents. -/
def Φ₀ (c : Dev nD) : sProp 𝕄 :=
  iprop(start m ρ c
    ∗ (∃ f, ((View.loc (c : Thread nD τ) (Memref.whole cc0_scratch0 : Memref sig .tc .vmem S1x256 .f32).view) ↦{fullShare} f))
    ∗ (∃ f, ((View.loc (c : Thread nD τ) (Memref.whole cc0_scratch1 : Memref sig .tc .vmem S1x256 .f32).view) ↦{fullShare} f)))
/-- After it: the partial row and the landing row at their values, the two own semaphores back at zero. -/
def Φ₁ (c : Dev nD) : sProp 𝕄 :=
  iprop(((View.loc (c : Thread nD τ) (Memref.whole cc0_scratch0 : Memref sig .tc .vmem S1x256 .f32).view) ↦{fullShare} part m ρ c)
    ∗ ((View.loc (c : Thread nD τ) (Memref.whole cc0_scratch1 : Memref sig .tc .vmem S1x256 .f32).view) ↦{fullShare} landed m ρ c)
    ∗ semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealBody.lean ====
import proofs.«900960_g7700000000000961_dist_mean_ax0_xy_m512_n256_v7x_xy2x2_f32_1_alg».proof.Proof.KernelIdealProto

/-!
# One device's body of the column-mean exchange

Stepped once, at a symbolic device `c`: the signal to the partner's barrier (handing over the landing row), the
row sums stored into the partial row, the barrier wait (receiving the partner's landing row), the copy of the
partial row into it, the two waits, and the scaled sum of the two rows stored into the result row.
-/

noncomputable section

namespace Cert.KernelIdealProof

open Cert.KernelIdeal Cert.KernelIdeal.Gen
open Cert.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the exchange's ghost state, the two credits, the waiting order, the two scratch
    rows at any contents, what the device owes, and the two staged windows. -/
def bodyPre (c : Dev nD) : sProp 𝕄 :=
  iprop((ghost m ρ K c ∗ cred (tallyAt (barCell c) () 1) ∗ cred (tallyAt (recvCell c) () N) ∗ levAts L lv
      ∗ (∃ f, ((View.loc (c : Thread nD τ) (Memref.whole cc0_scratch0 : Memref sig .tc .vmem S1x256 .f32).view) ↦{fullShare} f))
      ∗ (∃ f, ((View.loc (c : Thread nD τ) (Memref.whole cc0_scratch1 : Memref sig .tc .vmem S1x256 .f32).view) ↦{fullShare} f)))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-! ### Whole-row reads and writes -/

omit [FloatOps F] in
theorem hz : (![0, 0] : Fin 2 → Nat) = fun _ => 0 := funext fun a => by fin_cases a <;> rfl

abbrev rX : Rect S512x256 := Rect.unit (s := S512x256) ![0, 0] S512x256.size inb_S512x256_S512x256_0_0
abbrev rR : Rect S1x256 := Rect.unit (s := S1x256) ![0, 0] S1x256.size inb_S1x256_S1x256_0_0

omit [FloatOps F] in
theorem read_x (f : (cc0_stg0_0 : Ref sig .tc).ty.Contents (Elt F)) :
    (xM : Memref sig .tc .vmem S512x256 .f32).view.readAt (Elt F) rX.toLoadRect f = f :=
  Memref.readAt_unit_zero (Elt F) cc0_stg0_0 hz _ f
omit [FloatOps F] in
theorem read_p (f : (cc0_scratch0 : Ref sig .tc).ty.Contents (Elt F)) :
    (pM : Memref sig .tc .vmem S1x256 .f32).view.readAt (Elt F) rR.toLoadRect f = f :=
  Memref.readAt_unit_zero (Elt F) cc0_scratch0 hz _ f
omit [FloatOps F] in
theorem read_r (f : (cc0_scratch1 : Ref sig .tc).ty.Contents (Elt F)) :
    (rM : Memref sig .tc .vmem S1x256 .f32).view.readAt (Elt F) rR.toLoadRect f = f :=
  Memref.readAt_unit_zero (Elt F) cc0_scratch1 hz _ f
omit [FloatOps F] in
/-- One store of a whole row leaves that row. -/
theorem written_p (f w : (cc0_scratch0 : Ref sig .tc).ty.Contents (Elt F)) :
    (pM : Memref sig .tc .vmem S1x256 .f32).view.writes (Elt F) f [⟨rR, w⟩] = w :=
  (View.writes_singleton _ _ _ _).trans (Memref.write_access_unit_zero_univ (Elt F) cc0_scratch0 hz _ f w)
omit [FloatOps F] in
theorem written_o (f w : (cc0_stg1_0 : Ref sig .tc).ty.Contents (Elt F)) :
    (oM : Memref sig .tc .vmem S1x256 .f32).view.writes (Elt F) f [⟨rR, w⟩] = w :=
  (View.writes_singleton _ _ _ _).trans (Memref.write_access_unit_zero_univ (Elt F) cc0_stg1_0 hz _ f w)

/-- The partial row after its store: the row sums of the staged block. -/
theorem prt_restate (c : Dev nD) (f0 : (cc0_scratch0 : Ref sig .tc).ty.Contents (Elt F)) :
    (((View.loc (c : Thread nD τ) (Memref.whole cc0_scratch0 : Memref sig .tc .vmem S1x256 .f32).view) ↦{fullShare}
        ((pM : Memref sig .tc .vmem S1x256 .f32).view.writes (Elt F) f0
          [⟨rR, k0_pay2 ((xM : Memref sig .tc .vmem S512x256 .f32).view.readAt (Elt F) rX.toLoadRect (xstg m ρ c))⟩])) : sProp 𝕄)
      = ((View.loc (c : Thread nD τ) (Memref.whole cc0_scratch0 : Memref sig .tc .vmem S1x256 .f32).view) ↦{fullShare} part m ρ c) := by
  rw [written_p, read_x]; rfl

/-- The result row after its store: the scaled sum of the partial row and the landed row. -/
theorem out_restate (c : Dev nD) (g1 : (cc0_stg1_0 : Ref sig .tc).ty.Contents (Elt F)) :
    (((View.loc (c : Thread nD τ) (Memref.whole cc0_stg1_0 : Memref sig .tc .vmem S1x256 .f32).view) ↦{fullShare}
        ((oM : Memref sig .tc .vmem S1x256 .f32).view.writes (Elt F) g1
          [⟨rR, k0_pay1 ((pM : Memref sig .tc .vmem S1x256 .f32).view.readAt (Elt F) rR.toLoadRect (part m ρ c))
              ((rM : Memref sig .tc .vmem S1x256 .f32).view.readAt (Elt F) rR.toLoadRect (landed m ρ c))⟩])) : sProp 𝕄)
      = ((View.loc (c : Thread nD τ) (Memref.whole cc0_stg1_0 : Memref sig .tc .vmem S1x256 .f32).view) ↦{fullShare} outAt m ρ c) := by
  rw [written_o, read_p, read_r]; rfl

attribute [local sl_rounds] duties_bar duties_send duties_recv amount_bar amount_send amount_recv expect_bar expect_send expect_recv
  payload_bar payload_send payload_recv
attribute [local sl_rounds high] payload_bar_peer payload_recv_peer
attribute [local sl_canon] dev1_eq dev2_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hprt⟩, ⟨%f1, Hrcv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  have hmw := mayWait_bar (F := F) c
  ihave Hxs := (Entails.of_eq (show (((c : Thread nD τ).loc cc0_stg0_0) ↦{fullShare} xstg m ρ c : sProp 𝕄)
      = ((View.loc (c : Thread nD τ) (Memref.whole cc0_stg0_0 : Memref sig .tc .vmem S512x256 .f32).view) ↦{fullShare} xstg m ρ c) from rfl)) $$ Hx
  ihave Hos := (Entails.of_eq (show (((c : Thread nD τ).loc cc0_stg1_0) ↦{fullShare} g1 : sProp 𝕄)
      = ((View.loc (c : Thread nD τ) (Memref.whole cc0_stg1_0 : Memref sig .tc .vmem S1x256 .f32).view) ↦{fullShare} g1) from rfl)) $$ Hout
  sl_exec
  ihave Hprt' := (Entails.of_eq (prt_restate m ρ c f0)) $$ Hprt
  sl_exec (disch := simp only [dev1_eq, dev2_eq])
  -- the two own cells have no later round: their counters, back at zero, are the device's again
  imod (Rounds.cell_close ER (xchRd m ρ) (Set.mem_univ (K (c, 1))) (fun h => h) (R := 0 + 1) (duties_later m ρ (sendCell c))) $$ [HatS] with HzS
  · isplitr; · iexact HIsnd
    iexact HatS
  imod (Rounds.cell_close ER (xchRd m ρ) (Set.mem_univ (K (c, 2))) (fun h => h) (R := 0 + 1) (duties_later m ρ (recvCell c))) $$ [HatV] with HzV
  · isplitr; · iexact HIrcv
    iexact HatV
  ihave Hos' := (Entails.of_eq (out_restate m ρ c g1)) $$ Hos
  rw [wp_ret]; imodintro
  iapply Hk
  unfold bodyPost Φ₁ Dat.owesAt Pipeline.owesWithin
  rw [show (dats m ρ 0 c).owed t₀.succ = 0 from rfl]
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hxs]
  · iexists _; isplitr; · (ipureintro; rfl)
    iexact Hxs
  iexists _; isplitr; · (ipureintro; rfl)
  iexact Hos'

end Body

end Cert.KernelIdealProof

end
-- ==== Proof.KernelIdealAlloc.lean ====
import proofs.«900960_g7700000000000961_dist_mean_ax0_xy_m512_n256_v7x_xy2x2_f32_1_alg».proof.Proof.KernelIdealProto

/-!
# The launch of the column-mean exchange: ghost state, credit, and what each device starts from

The twelve cells (three per device) are funded at round 0 and their invariants allocated for all devices under
one update, because a barrier cell and a receive cell are each opened by two devices. The tokens of a device's
barrier and receive duties go to its partner, which pays them; the launch credit of a barrier cell is the one
unit its partner owes it, that of a receive cell the one copy its partner owes it.
-/

noncomputable section

namespace Cert.KernelIdealProof

open Cert.KernelIdeal Cert.KernelIdeal.Gen
open Cert.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xchCells : Finset (GSem nD τ sig) := Finset.univ.map ⟨kcell, kcell_injective⟩

/-- The duty tokens as minted: one per cell, round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xchToks : Finset (GSem nD τ sig × ℕ × Unit) := Finset.univ.map ⟨tokOf, tokOf_injective⟩

def u₀ : UU :=
  (initOf (Pipeline.cells cfgs cellOf_inj) (Pipeline.launchToks cfgs cellOf_inj), initOf xchCells xchToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch deals device `c`. -/
def G (c : Dev nD) : sProp 𝕄 :=
  iprop((bigSep Finset.univ fun k : Fin 3 => roundState ER (xchRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_xch : BI.own (ER (initOf xchCells xchToks)) ⊢ (|==> bigSep Finset.univ (G m ρ) : sProp 𝕄) := by
  have hX (Φ : GSem nD τ sig → sProp 𝕄) : bigSep xchCells Φ = bigSep Finset.univ fun c : Dev nD => bigSep Finset.univ fun k : Fin 3 => Φ (kcell (c, k)) := by
    unfold xchCells; rw [bigSep_map, bigSep_univ_prod]; rfl
  have hT : bigSep xchToks (fun x => (dutyTok ER x.1 x.2.1 x.2.2 : sProp 𝕄)) = bigSep Finset.univ fun c : Dev nD => toks c := by
    unfold xchToks; rw [bigSep_map, bigSep_univ_prod]
    exact bigSep_congr fun c _ => by unfold toks; rw [bigSep_fin3]; rfl
  iintro HX
  imod (Rounds.fund ER (xchRd m ρ) xchCells xchToks) $$ HX with ⟨Hst, Hr, Hat, Htok⟩
  imodintro
  ihave Hst' := (Entails.of_eq (hX fun g => roundState ER (xchRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xchRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchRd m ρ) (kcell (c, k)) 0)
      ⊢ (|={Set.univ}=> bigSep Finset.univ fun k => iprop(∃ κ : ℕ, cellInv ER (xchRd m ρ) κ (kcell (c, k))) : sProp 𝕄) from by
        rw [← bigSep_sep']
        exact (bigSep_mono fun k _ => (Rounds.body_intro ER (xchRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (xchRd m ρ) (K ck) (kcell ck) : sProp 𝕄)) ⊢ cellInv ER (xchRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the exchange: a barrier's and a receive cell's token go to the partner, a send cell's stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (xchRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchRd m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

theorem peer_eq_iff {a b : Dev nD} : Iff (a = peer b) (b = peer a) :=
  ⟨fun h => by rw [h, peer_peer], fun h => by rw [h, peer_peer]⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (peer_eq_iff.mp (bar_eq_iff.mp h1))), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (peer_eq_iff.mp (recv_eq_iff.mp h1))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hp⟩, ⟨%g, Hr⟩⟩
  isplitl [Hs]; · iexact Hs
  isplitl [Hp]
  · iexists f; iexact Hp
  · iexists g; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hp, Hr, HzS, HzV⟩
  isplitr; · iempintro
  isplitl [HzS HzV]
  · isplitl [HzS] <;> iassumption
  isplitl [Hp]
  · iexists (part m ρ c); iexact Hp
  · iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdealProof

end
-- ==== Proof.KernelIdealLaunch.lean ====
import proofs.«900960_g7700000000000961_dist_mean_ax0_xy_m512_n256_v7x_xy2x2_f32_1_alg».proof.Proof.KernelIdealBody
import proofs.«900960_g7700000000000961_dist_mean_ax0_xy_m512_n256_v7x_xy2x2_f32_1_alg».proof.Proof.KernelIdealAlloc
import proofs.«900960_g7700000000000961_dist_mean_ax0_xy_m512_n256_v7x_xy2x2_f32_1_alg».proof.Proof.Gen.KernelIdeal.Points

/-!
# The run of the column-mean exchange

From any memory with every semaphore at zero, every fair interleaving of the four devices ends; each device's
result row then holds the scaled sum of its own and its partner's partial rows, and its input block is unchanged.
-/

noncomputable section

namespace Cert.KernelIdealProof

open Cert.KernelIdeal Cert.KernelIdeal.Gen
open Cert.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hprt, Hrcv⟩, Ho, Hx, Hout⟩
  iapply (sound_body m ρ K c fun _ => bodyPost m ρ c)
  unfold bodyPre
  isplitr []
  · isplitl [Hg Hrest Hprt Hrcv]
    · isplitl [Hg]; · iexact Hg
      icases Hrest with ⟨H1, H2, H3⟩
      isplitl [H1]; · iexact H1
      isplitl [H2]; · iexact H2
      isplitl [H3]; · iexact H3
      isplitl [Hprt]; · iexact Hprt
      iexact Hrcv
    isplitl [Ho]; · iexact Ho
    isplitl [Hx] <;> iassumption
  · iintro H; iexact H

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution terminates, and every final state has each device's windowed arrays at the computed contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_xch m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-! ### The final arrays, named -/

/-- The grid has one point, and each window's block there is its whole array at offset zero: a block read back is the array. -/
theorem read_in (c : Dev nD) (f : Buf (Elt F) ((c : Thread nD τ).loc main_arg0)) :
    (win0_0.blk t₀).view.read (Elt F) f = f :=
  Memref.read_access_unit_zero (Elt F) main_arg0
    (show (fun a => (win0_0.index t₀) a * main_arg0.ty.shape.size a) = fun _ => 0 from
      funext fun a => by fin_cases a <;> decide) (fun a => by fin_cases a <;> decide) f
theorem read_out (c : Dev nD) (f : Buf (Elt F) ((c : Thread nD τ).loc main_v1)) :
    (win0_1.blk t₀).view.read (Elt F) f = f :=
  Memref.read_access_unit_zero (Elt F) main_v1
    (show (fun a => (win0_1.index t₀) a * main_v1.ty.shape.size a) = fun _ => 0 from
      funext fun a => by fin_cases a <;> decide) (fun a => by fin_cases a <;> decide) f

/-- The input block ends as it was launched. -/
theorem finalA_x (c : Dev nD) : finalA m ρ c (0 : Fin 2) = (st0 m ρ).mem (win0_0.arr.view.loc (c : Thread nD τ)) :=
  (dats (F := F) m ρ 0 c).arrAt_in (0 : Fin 2) rfl _

/-- The staged block of the input is the whole input block. -/
theorem xstg_eq (c : Dev nD) : xstg m ρ c = m ((c : Thread nD τ).loc main_arg0) := by
  show (win0_0.blk t₀).view.read (Elt F) (m ((c : Thread nD τ).loc main_arg0)) = _
  exact read_in c _

/-- The result array ends holding the result row: the one write-back writes the whole row over the whole array. -/
theorem finalA_out (c : Dev nD) : finalA m ρ c (1 : Fin 2) = outAt m ρ c := by
  have hw : ((cfg0.win 1).blk t₀).view.read (Elt F) ((dats (F := F) m ρ 0 c).arrAt 1 cfg0.N)
      = (dats (F := F) m ρ 0 c).flushed 1 t₀ := by
    rw [show cfg0.N = t₀.val + 1 from rfl, (dats m ρ 0 c).arrAt_succ (1 : Fin 2) t₀, flush0_1, if_pos rfl]
    exact View.read_write_univ _ _
  exact (read_out c _).symm.trans (hw.trans (funext fun _ => rfl))

/-- The run with both arrays named: each device's result array holds its result row, its input block is unchanged. -/
theorem run_named : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ)

/-- info: 'Cert.KernelIdealProof.run_named' depends on axioms: [propext, Classical.choice, Quot.sound] -/
#guard_msgs in #print axioms run_named

end Cert.KernelIdealProof

end
-- ==== Proof.Value.lean ====
import proofs.«900960_g7700000000000961_dist_mean_ax0_xy_m512_n256_v7x_xy2x2_f32_1_alg».proof.Proof.Gen.KernelIdeal.Skeleton
import proofs.«900960_g7700000000000961_dist_mean_ax0_xy_m512_n256_v7x_xy2x2_f32_1_alg».proof.Proof.Gen.ReferenceIdeal.Run
import proofs.«900960_g7700000000000961_dist_mean_ax0_xy_m512_n256_v7x_xy2x2_f32_1_alg».proof.Proof.Gen.ReferenceIdeal.Read
import proofs.«900960_g7700000000000961_dist_mean_ax0_xy_m512_n256_v7x_xy2x2_f32_1_alg».proof.Proof.Mesh
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

/-! # The value bridge of the distributed column mean

Four devices on a 2×2 mesh numbered row-major; device `c` holds rows `[512 · (c / 2), +512)` and columns
`[256 · (c % 2), +256)` of the whole `[1024, 512]` argument. Each device sums its block's rows, exchanges the partial
row with the device at the other row coordinate and the same column coordinate, adds the two and multiplies by `2⁻¹⁰`.
The reference sums all 1024 rows and divides by `1024`; device `c` must hold its columns of that row. Over the
extended reals the two agree for every argument: a sum over a finite index set splits over a partition of it with no
finiteness of the terms, addition commutes, and `x · 2⁻¹⁰ = x / 1024` at every extended real. -/

namespace Cert.MeanValue

open Idealize.ShloMosaic Idealize.ShloMosaic.ValueIdx Idealize.SL.Sem
open scoped BigOperators

/-! ## The two payloads read at an index -/

open Cert.KernelIdeal Cert.KernelIdeal.Gen in
/-- The combining payload at an index: the sum of the two partial rows there, times the literal `2⁻¹⁰`. -/
theorem pay1_apply (a b : Vec Ideal S1x256 .f32) (i : S1x256.Idx) :
    k0_pay1 (F := Ideal) a b i = (a i + b i) * Ideal.ofBits .f32 0x3A800000#32 := rfl

open Cert.KernelIdeal Cert.KernelIdeal.Gen in
/-- The partial-sum payload at column `j`: the sum of the block's 512 rows at that column (the two casts to the same
    shape are the identity, the cast `[256] → [1, 256]` reads the lane, and the zero accumulator adds nothing). -/
theorem pay2_apply (v : Vec Ideal S512x256 .f32) (u : Fin 1) (j : Fin 256) :
    k0_pay2 (F := Ideal) v (ix2 u j) = ∑ k : Fin 512, v (ix2 k j) := by
  unfold k0_pay2
  rw [shapeCast_self, shapeCast_self, shapeCast_a_1a_apply]
  refine (Ideal.multiReduction_add_single (φ := .f32) (s := S512x256) (t := S256) (a := 0) v _
    reduces_S512x256_S256 _ _ (ix1 j)).trans ?_
  refine Finset.sum_congr rfl fun k _ => congrArg v (funext fun a => Fin.ext ?_)
  match a with
  | ⟨0, _⟩ => rfl
  | ⟨1, _⟩ => rfl

/-! ## Where a device's blocks lie in the whole arrays -/

/-- Row `k` of the block at block row `a` (of two) of a 1024-row array. -/
def rowAt (a : ℕ) (ha : a < 2) (k : Fin 512) : Fin 1024 := ⟨a * 512 + k.val, by have := k.isLt; omega⟩
/-- Column `j` of the block at block column `b` (of two) of a 512-column array. -/
def colAt (b : ℕ) (hb : b < 2) (j : Fin 256) : Fin 512 := ⟨b * 256 + j.val, by have := j.isLt; omega⟩

theorem row_lt (c : Dev 4) : c.val / 2 < 2 := by have := c.isLt; omega
theorem col_lt (c : Dev 4) : c.val % 2 < 2 := Nat.mod_lt _ (by decide)

/-- On the 2×2 mesh numbered row-major, device `c`'s block coordinate along a dimension cut by mesh axis 0 is `c / 2`, -/
theorem meshLin_axis0 : ∀ c : Dev 4, Layout.meshLin [2, 2] c.val [0] = c.val / 2 := by decide
/-- along a dimension cut by mesh axis 1 it is `c % 2`, -/
theorem meshLin_axis1 : ∀ c : Dev 4, Layout.meshLin [2, 2] c.val [1] = c.val % 2 := by decide
/-- and along a dimension that is not cut it is `0`. -/
theorem meshLin_nil (c : Dev 4) : Layout.meshLin [2, 2] c.val [] = 0 := rfl

/-- Device `c`'s block of the argument, at `(k, j)`, is the whole argument at row `512 · (c / 2) + k`, column
    `256 · (c % 2) + j`. -/
theorem argBlock_apply {α : Type} (A : (⟨2, ![1024, 512]⟩ : Shape).Idx → α) (c : Dev 4) (k : Fin 512) (j : Fin 256) :
    (Layout.blockN ⟨2, ![512, 256]⟩ ⟨2, ![1024, 512]⟩ (Layout.meshBlock [2, 2] ![[0], [1]] c) A) (ix2 k j)
      = A (ix2 (rowAt (c.val / 2) (row_lt c) k) (colAt (c.val % 2) (col_lt c) j)) := by
  rw [Layout.blockN_apply]
  refine congrArg A (funext fun a => Fin.ext ?_)
  match a with
  | ⟨0, _⟩ =>
    show Layout.meshLin [2, 2] c.val [0] * 512 + k.val = c.val / 2 * 512 + k.val
    rw [meshLin_axis0]
  | ⟨1, _⟩ =>
    show Layout.meshLin [2, 2] c.val [1] * 256 + j.val = c.val % 2 * 256 + j.val
    rw [meshLin_axis1]

/-- Device `c`'s block of the result row, at `(u, j)`, is the whole row at column `256 · (c % 2) + j`. -/
theorem resBlock_apply {α : Type} (R : (⟨2, ![1, 512]⟩ : Shape).Idx → α) (c : Dev 4) (u : Fin 1) (j : Fin 256) :
    (Layout.blockN ⟨2, ![1, 256]⟩ ⟨2, ![1, 512]⟩ (Layout.meshBlock [2, 2] ![[], [1]] c) R) (ix2 u j)
      = R (ix2 (0 : Fin 1) (colAt (c.val % 2) (col_lt c) j)) := by
  rw [Layout.blockN_apply]
  refine congrArg R (funext fun a => Fin.ext ?_)
  match a with
  | ⟨0, _⟩ =>
    show Layout.meshLin [2, 2] c.val [] * 1 + u.val = 0
    rw [meshLin_nil]; omega
  | ⟨1, _⟩ =>
    show Layout.meshLin [2, 2] c.val [1] * 256 + j.val = c.val % 2 * 256 + j.val
    rw [meshLin_axis1]

/-! ## The sum over all rows is the sum over the two row blocks -/

/-- A sum over the 1024 rows splits into the rows of block 0 and the rows of block 1. -/
theorem sum_rows_split (f : Fin 1024 → EReal) :
    ∑ r, f r = ∑ k : Fin 512, f (rowAt 0 (by decide) k) + ∑ k : Fin 512, f (rowAt 1 (by decide) k) := by
  refine (Fin.sum_univ_add (a := 512) (b := 512) f).trans ?_
  refine congrArg₂ (· + ·) (Finset.sum_congr rfl fun k _ => congrArg f (Fin.ext ?_))
    (Finset.sum_congr rfl fun k _ => congrArg f (Fin.ext ?_))
  · show k.val = 0 * 512 + k.val
    omega
  · show 512 + k.val = 1 * 512 + k.val
    omega

/-- So two row blocks at complementary block rows, in either order, add up to the sum over all rows. -/
theorem sum_two_blocks (f : Fin 1024 → EReal) (a b : ℕ) (ha : a < 2) (hb : b < 2) (hab : a + b = 1) :
    ∑ k, f (rowAt a ha k) + ∑ k, f (rowAt b hb k) = ∑ r, f r := by
  rw [sum_rows_split f]
  obtain rfl | rfl : a = 0 ∨ a = 1 := by omega
  · obtain rfl : b = 1 := by omega
    rfl
  · obtain rfl : b = 0 := by omega
    exact add_comm _ _

/-! ## The literals -/

/-- The reference's divisor `1024.0` denotes the real `1024`. -/
theorem ofBits_1024 : Ideal.ofBits .f32 0x44800000#32 = ((1024 : ℝ) : EReal) := by
  simp [Ideal.ofBits, Ideal.ieee, -EReal.coe_mul]; norm_num

/-- The kernel's factor `9.765625E-4` denotes the real `1 / 1024`. -/
theorem ofBits_inv_1024 : Ideal.ofBits .f32 0x3A800000#32 = ((1 / 1024 : ℝ) : EReal) := by
  simp [Ideal.ofBits, Ideal.ieee, -EReal.coe_mul]; norm_num

/-- Times `2⁻¹⁰` is divided by `1024`, at every extended real. -/
theorem scale_eq_div (x : EReal) :
    x * Ideal.ofBits .f32 0x3A800000#32 = Ideal.div x (Ideal.ofBits .f32 0x44800000#32) := by
  rw [ofBits_1024, ofBits_inv_1024, Ideal.div_coe (by norm_num : (1024 : ℝ) ≠ 0)]

/-! ## The reference read at an index -/

open Cert.ReferenceIdeal Cert.ReferenceIdeal.Read in
/-- The reference's row at column `q`: zero plus the sum of the 1024 rows at that column, divided by `1024`. -/
theorem ref_apply (A : (⟨S1024x512, .f32⟩ : BufTy).Contents (Elt Ideal)) (u : Fin 1) (q : Fin 512) :
    val_main_v3 (F := Ideal) A (ix2 u q)
      = Ideal.div (∑ r : Fin 1024, A (ix2 r q)) (Ideal.ofBits .f32 0x44800000#32) := by
  have hidx : ∀ k : Fin 1024, idx_main_v0 (idx_main_v1 (ix2 u q)) k = ix2 k q := fun k =>
    funext fun a => Fin.ext (by match a with | ⟨0, _⟩ => rfl | ⟨1, _⟩ => rfl)
  rw [val_main_v3_apply, val_main_v1_apply, val_main_v0_apply, val_main_v2_apply, val_main_cst_apply,
    val_main_cst_0_apply]
  simp only [hidx, Ideal.hostDivf_def, Ideal.ofBits_def, Ideal.ofBits_zero_f32, zero_add]

/-! ## The bridge -/

/-- On every device the kernel's result — its own block's column sums plus its partner's, times `2⁻¹⁰` — is that
    device's block of the reference's mean row: the device and its partner hold the two row blocks of the same column
    block, so their column sums add up to the sum over all 1024 rows, and times `2⁻¹⁰` is divided by `1024`. -/
theorem result_eq
    (X : Dev 4 → Vec Ideal Cert.KernelIdeal.S512x256 .f32)
    (A : (⟨Cert.ReferenceIdeal.S1024x512, .f32⟩ : BufTy).Contents (Elt Ideal))
    (hX : ∀ c : Dev 4, X c = Layout.blockN ⟨2, ![512, 256]⟩ ⟨2, ![1024, 512]⟩ (Layout.meshBlock [2, 2] ![[0], [1]] c) A)
    (c : Dev 4) :
    Cert.KernelIdeal.Gen.k0_pay1 (F := Ideal) (Cert.KernelIdeal.Gen.k0_pay2 (F := Ideal) (X c)) (Cert.KernelIdeal.Gen.k0_pay2 (F := Ideal) (X (Cert.Mesh.peer c)))
      = Layout.blockN ⟨2, ![1, 256]⟩ ⟨2, ![1, 512]⟩ (Layout.meshBlock [2, 2] ![[], [1]] c) (Cert.ReferenceIdeal.Read.val_main_v3 (F := Ideal) A) := by
  funext i
  obtain ⟨u, j, rfl⟩ : ∃ (u : Fin 1) (j : Fin 256), i = ix2 u j := ⟨i 0, i 1, eq_ix2 i⟩
  rw [pay1_apply, pay2_apply, pay2_apply, hX c, hX (Cert.Mesh.peer c), resBlock_apply, ref_apply, scale_eq_div]
  simp only [argBlock_apply]
  have hcol : colAt ((Cert.Mesh.peer c).val % 2) (col_lt _) j = colAt (c.val % 2) (col_lt c) j :=
    Fin.ext (by show (Cert.Mesh.peer c).val % 2 * 256 + j.val = c.val % 2 * 256 + j.val; rw [Cert.Mesh.peer_col])
  rw [hcol]
  exact congrArg (Ideal.div · _)
    (sum_two_blocks (fun r => A (ix2 r (colAt (c.val % 2) (col_lt c) j))) _ _ (row_lt c) (row_lt _)
      (by rw [Cert.Mesh.peer_row]; have := row_lt c; omega))

end Cert.MeanValue

end

/-- info: 'Cert.MeanValue.result_eq' depends on axioms: [propext, Classical.choice, Quot.sound] -/
#guard_msgs in #print axioms Cert.MeanValue.result_eq
-- ==== Proof.lean ====
/- The certificate of the column mean over a 2×2 mesh.

   Each of the four devices sums the 512 rows of its [512, 256] block, exchanges the row of partial sums with the
   device holding the other row block of the same columns, adds the two rows and scales by 2⁻¹⁰; the reference
   sums the 1024 rows of the whole [1024, 512] array and divides by 1024. The three frames come from the runs with
   values named (the kernel's, at both float instances, from the launch of the exchange; the reference's from its
   straight-line run); nothing was rewritten by idealization; and over the extended reals each device's row is its
   column block of the reference's row, for every input: a finite sum splits over the two row blocks, addition
   commutes, and multiplying by 2⁻¹⁰ is dividing by 1024 at every extended real. -/
import proofs.«900960_g7700000000000961_dist_mean_ax0_xy_m512_n256_v7x_xy2x2_f32_1_alg».proof.Defs
import proofs.«900960_g7700000000000961_dist_mean_ax0_xy_m512_n256_v7x_xy2x2_f32_1_alg».proof.Proof.Gen.Kernel
import proofs.«900960_g7700000000000961_dist_mean_ax0_xy_m512_n256_v7x_xy2x2_f32_1_alg».proof.Proof.Gen.Kernel.Skeleton
import proofs.«900960_g7700000000000961_dist_mean_ax0_xy_m512_n256_v7x_xy2x2_f32_1_alg».proof.Proof.Gen.Kernel.Launch
import proofs.«900960_g7700000000000961_dist_mean_ax0_xy_m512_n256_v7x_xy2x2_f32_1_alg».proof.Proof.Gen.Kernel.Points
import proofs.«900960_g7700000000000961_dist_mean_ax0_xy_m512_n256_v7x_xy2x2_f32_1_alg».proof.Proof.Gen.KernelIdeal
import proofs.«900960_g7700000000000961_dist_mean_ax0_xy_m512_n256_v7x_xy2x2_f32_1_alg».proof.Proof.Gen.KernelIdeal.Skeleton
import proofs.«900960_g7700000000000961_dist_mean_ax0_xy_m512_n256_v7x_xy2x2_f32_1_alg».proof.Proof.Gen.KernelIdeal.Launch
import proofs.«900960_g7700000000000961_dist_mean_ax0_xy_m512_n256_v7x_xy2x2_f32_1_alg».proof.Proof.Gen.KernelIdeal.Points
import proofs.«900960_g7700000000000961_dist_mean_ax0_xy_m512_n256_v7x_xy2x2_f32_1_alg».proof.Proof.Gen.ReferenceIdeal
import proofs.«900960_g7700000000000961_dist_mean_ax0_xy_m512_n256_v7x_xy2x2_f32_1_alg».proof.Proof.Gen.ReferenceIdeal.Run
import proofs.«900960_g7700000000000961_dist_mean_ax0_xy_m512_n256_v7x_xy2x2_f32_1_alg».proof.Proof.Gen.ReferenceIdeal.Read
import proofs.«900960_g7700000000000961_dist_mean_ax0_xy_m512_n256_v7x_xy2x2_f32_1_alg».proof.Proof.Gen.Pre_finite_inputs_Kernel
import proofs.«900960_g7700000000000961_dist_mean_ax0_xy_m512_n256_v7x_xy2x2_f32_1_alg».proof.Proof.Gen.Pre_finite_inputs_ReferenceIdeal
import proofs.«900960_g7700000000000961_dist_mean_ax0_xy_m512_n256_v7x_xy2x2_f32_1_alg».proof.Proof.KernelLaunch
import proofs.«900960_g7700000000000961_dist_mean_ax0_xy_m512_n256_v7x_xy2x2_f32_1_alg».proof.Proof.KernelIdealLaunch
import proofs.«900960_g7700000000000961_dist_mean_ax0_xy_m512_n256_v7x_xy2x2_f32_1_alg».proof.Proof.Value
import Idealize.ShloMosaic.Adequacy
import Idealize.ShloMosaic.Init

noncomputable section

namespace Cert.Proof

open Idealize.ShloMosaic Idealize.SL.Sem

/-- On every device the kernel's result row is that device's column block of the reference's mean row, whenever each
    device's input is its block of the reference's input. -/
theorem value_eq
    (m : (ℓ : Loc Cert.KernelIdeal.nD Cert.KernelIdeal.τ Cert.KernelIdeal.sig) → Buf (Elt Ideal) ℓ) (ρ : Dev Cert.KernelIdeal.nD → PrngReg)
    (A : (⟨Cert.ReferenceIdeal.S1024x512, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.blockN ⟨2, ![512, 256]⟩ ⟨2, ![1024, 512]⟩ (Layout.meshBlock [2, 2] ![[0], [1]] c) A)
    (c : Dev Cert.KernelIdeal.nD) :
    Cert.KernelIdealProof.outAt (F := Ideal) m ρ c
      = Layout.blockN ⟨2, ![1, 256]⟩ ⟨2, ![1, 512]⟩ (Layout.meshBlock [2, 2] ![[], [1]] c) (Cert.ReferenceIdeal.Read.val_main_v3 (F := Ideal) A) := by
  unfold Cert.KernelIdealProof.outAt Cert.KernelIdealProof.landed Cert.KernelIdealProof.part
  rw [Cert.KernelIdealProof.xstg_eq, Cert.KernelIdealProof.xstg_eq]
  exact Cert.MeanValue.result_eq (fun c => m ((c.tc : Thread Cert.KernelIdeal.nD Cert.KernelIdeal.τ).loc Cert.KernelIdeal.main_arg0)) A hagree c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the kernel read at words: its run with values named, the values dropped
  fun m ρ _ => (θ_run Cert.Kernel.defs _ _).mono (fun _ h c => (h c).2) (Cert.KernelProof.run_named (F := Bits) m ρ),
  -- the kernel read at extended reals: the same
  fun m ρ _ => (θ_run Cert.KernelIdeal.defs _ _).mono (fun _ h c => (h c).2) (Cert.KernelIdealProof.run_named (F := Ideal) m ρ),
  -- the reference: its straight-line run, the result dropped
  fun m ρ _ => (θ_run Cert.ReferenceIdeal.defs _ _).mono (fun _ h c => (h c).2) (Cert.ReferenceIdeal.Value.run (F := Ideal) m ρ),
  -- idealization rewrote nothing
  trivial,
  -- both runs end, the kernel's rows being the column blocks of the reference's row
  fun m ρ m' ρ' _ hagree =>
    ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)),
      (θ_run Cert.KernelIdeal.defs _ _).mono (fun _ h c => ⟨(h c).1.trans (value_eq m ρ _ hagree c), (h c).2⟩)
        (Cert.KernelIdealProof.run_named (F := Ideal) m ρ),
      (θ_run Cert.ReferenceIdeal.defs _ _).mono (fun _ h => ⟨(h 0).1.trans (Cert.ReferenceIdeal.Read.val_main_v3_eq _), (h 0).2⟩)
        (Cert.ReferenceIdeal.Value.run (F := Ideal) m' ρ')⟩⟩

end Cert.Proof

end
